-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v22_0)) (v2 : (c : Dev Cert.KernelIdeal.nD) → Buf (Elt Ideal) ((c.tc : Thread Cert.KernelIdeal.nD Cert.KernelIdeal.τ).loc Cert.KernelIdeal.main_v22_1)) (v3 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v22_0) = v1 c
          ∧ r.2.mem ((c.tc : Thread Cert.KernelIdeal.nD Cert.KernelIdeal.τ).loc Cert.KernelIdeal.main_v22_1) = v2 c
          ∧ r.2.mem ((c.tc : Thread Cert.KernelIdeal.nD Cert.KernelIdeal.τ).loc Cert.KernelIdeal.main_v36) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128x128 .f32) (main_arg3 : FVec F S128 .f32) (main_arg4 : FVec F S128x64 .f32) (main_arg5 : FVec F S128x64 .f32) (main_arg6 : FVec F S64 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S1x64 : Shape := ⟨2, ![1, 64]⟩
abbrev S100000x64 : Shape := ⟨2, ![100000, 64]⟩
abbrev S4000x64 : Shape := ⟨2, ![4000, 64]⟩

abbrev nBuf : Space → Nat
  | .hbm => 57
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S1x64, .f32⟩
  | .hbm, ⟨56, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S128x64, .f32⟩
  | .local _ .vmem, ⟨16, _⟩ => ⟨S128x64, .f32⟩
  | .local _ .vmem, ⟨17, _⟩ => ⟨S1x64, .f32⟩
  | .local _ .vmem, ⟨18, _⟩ => ⟨S4000x64, .f32⟩
  | .local _ .vmem, ⟨19, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22_0 : Ref sig .tc := ⟨.hbm, 38, rfl⟩
abbrev main_v22_1 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_1) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22_1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.SageLayer.lean ====
/-
  One GraphSAGE layer before its activation, as a function of whole arrays over the extended reals: at node r and
  output feature q,

      (Σ_κ x[r, κ] · W_self[κ, q]  +  Σ_κ agg[r, κ] · W_neigh[κ, q])  +  b[q],

  x the node features, agg the mean of the in-neighbours' features, κ over the input features. The grouping of the
  two sums and the bias is the one both programs use, so no law of the extended reals beyond reading each
  operation at an index is needed. Stated for free extents (n nodes, k input and d output features).
  Below: a host program's form of the layer (two matrix products, their sum, the bias broadcast first to one row and
  then down the rows) is this function.
-/
import Idealize.ShloMosaic.PureOps.Ideal.Laws
import Idealize.ShloMosaic.Lib.ValueIdx
import Idealize.ShloMosaic.Lib.ValueLayout
import Idealize.ShloMosaic.Lib.Pipeline.Value
import proofs.«136791_j8899172237857_1_alg».proof.Proof.LibPlainDot

noncomputable section

open scoped BigOperators

namespace SageLayer

open Idealize.ShloMosaic Idealize.ShloMosaic.ValueIdx

variable (n k d : Nat)

/-- The layer before its activation, index by index. -/
def layer (x agg : (⟨2, ![n, k]⟩ : Shape).Idx → EReal) (ws wn : (⟨2, ![k, d]⟩ : Shape).Idx → EReal)
    (b : (⟨1, ![d]⟩ : Shape).Idx → EReal) : (⟨2, ![n, d]⟩ : Shape).Idx → EReal :=
  fun j => (∑ κ : Fin k, x (ix2 (n0 := n) (n1 := k) ⟨(j 0).val, (j 0).isLt⟩ κ) * ws (ix2 (n0 := k) (n1 := d) κ ⟨(j 1).val, (j 1).isLt⟩)
      + ∑ κ : Fin k, agg (ix2 (n0 := n) (n1 := k) ⟨(j 0).val, (j 0).isLt⟩ κ) * wn (ix2 (n0 := k) (n1 := d) κ ⟨(j 1).val, (j 1).isLt⟩))
    + b (ix1 (n := d) ⟨(j 1).val, (j 1).isLt⟩)

/-- The layer followed by the rectifier: the larger of the layer's value and zero. -/
def layerRelu (x agg : (⟨2, ![n, k]⟩ : Shape).Idx → EReal) (ws wn : (⟨2, ![k, d]⟩ : Shape).Idx → EReal)
    (b : (⟨1, ![d]⟩ : Shape).Idx → EReal) : (⟨2, ![n, d]⟩ : Shape).Idx → EReal :=
  fun j => max (layer n k d x agg ws wn b j) (Ideal.ofBits .f32 0x00000000#32)

/-- A bias vector broadcast to one row and then down all rows reads, at (r, q), the vector at q. -/
theorem bias_rows_apply (b : (⟨1, ![d]⟩ : Shape).Idx → EReal)
    (h1 : (⟨1, ![d]⟩ : Shape).BroadcastsInDim ⟨2, ![1, d]⟩ ![1])
    (h2 : (⟨2, ![1, d]⟩ : Shape).BroadcastsInDim ⟨2, ![n, d]⟩ ![0, 1]) (j : (⟨2, ![n, d]⟩ : Shape).Idx) :
    broadcastInDim ⟨2, ![n, d]⟩ ![0, 1] h2 (broadcastInDim ⟨2, ![1, d]⟩ ![1] h1 b) j = b (ix1 (n := d) ⟨(j 1).val, (j 1).isLt⟩) := by
  rw [broadcastInDim_apply ![0, 1] h2 _ j (ix2 (n0 := 1) (n1 := d) ⟨0, Nat.one_pos⟩ ⟨(j 1).val, (j 1).isLt⟩) (fun a => by
    match a with
    | ⟨0, _⟩ => show (0 : Nat) = if (1 : Nat) = 1 then 0 else (j 0).val; rw [if_pos rfl]
    | ⟨1, _⟩ =>
      show (j 1).val = if d = 1 then 0 else (j 1).val
      split
      · have := (j 1).isLt; show (j 1).val = 0; have h : (j 1).val < d := (j 1).isLt; omega
      · rfl)]
  exact broadcastInDim_apply ![1] h1 b (ix2 (n0 := 1) (n1 := d) ⟨0, Nat.one_pos⟩ ⟨(j 1).val, (j 1).isLt⟩) (ix1 (n := d) ⟨(j 1).val, (j 1).isLt⟩) (fun a => by
    match a with
    | ⟨0, _⟩ =>
      show (j 1).val = if d = 1 then 0 else (j 1).val
      split
      · have h : (j 1).val < d := (j 1).isLt; omega
      · rfl)

/-- A host program's layer — the product of the features with the self weights plus the product of the aggregate with
    the neighbour weights, plus the bias broadcast over the rows — is `layer`. -/
theorem host_layer_eq (dd : DotDims ⟨2, ![n, k]⟩ ⟨2, ![k, d]⟩ ⟨2, ![n, d]⟩) (hdd : dd = DotDims.plain n k d)
    (x agg : FVec Ideal ⟨2, ![n, k]⟩ .f32) (ws wn : FVec Ideal ⟨2, ![k, d]⟩ .f32) (b : FVec Ideal ⟨1, ![d]⟩ .f32)
    (h1 : (⟨1, ![d]⟩ : Shape).BroadcastsInDim ⟨2, ![1, d]⟩ ![1])
    (h2 : (⟨2, ![1, d]⟩ : Shape).BroadcastsInDim ⟨2, ![n, d]⟩ ![0, 1]) :
    addf (addf (Host.dotGeneral dd none x ws) (Host.dotGeneral dd none agg wn))
        (broadcastInDim ⟨2, ![n, d]⟩ ![0, 1] h2 (broadcastInDim ⟨2, ![1, d]⟩ ![1] h1 b))
      = layer n k d x agg ws wn b := by
  subst hdd
  funext j
  rw [addf_apply, addf_apply, bias_rows_apply n d b h1 h2 j]
  simp only [Host.dotGeneral]
  rw [PlainDot.dotGeneral_apply, PlainDot.dotGeneral_apply]
  rfl

/-- A host program's rectified layer — the larger of the layer and a zero splat — is `layerRelu`. -/
theorem host_layer_relu_eq (dd : DotDims ⟨2, ![n, k]⟩ ⟨2, ![k, d]⟩ ⟨2, ![n, d]⟩) (hdd : dd = DotDims.plain n k d)
    (x agg : FVec Ideal ⟨2, ![n, k]⟩ .f32) (ws wn : FVec Ideal ⟨2, ![k, d]⟩ .f32) (b : FVec Ideal ⟨1, ![d]⟩ .f32)
    (h1 : (⟨1, ![d]⟩ : Shape).BroadcastsInDim ⟨2, ![1, d]⟩ ![1])
    (h2 : (⟨2, ![1, d]⟩ : Shape).BroadcastsInDim ⟨2, ![n, d]⟩ ![0, 1])
    (hz : (⟨0, ![]⟩ : Shape).BroadcastsInDim ⟨2, ![n, d]⟩ ![]) :
    maximumf (addf (addf (Host.dotGeneral dd none x ws) (Host.dotGeneral dd none agg wn))
          (broadcastInDim ⟨2, ![n, d]⟩ ![0, 1] h2 (broadcastInDim ⟨2, ![1, d]⟩ ![1] h1 b)))
        (broadcastInDim ⟨2, ![n, d]⟩ ![] hz (constant (F := Ideal) ⟨0, ![]⟩ .f32 0x00000000#32))
      = layerRelu n k d x agg ws wn b := by
  rw [host_layer_eq n k d dd hdd x agg ws wn b h1 h2]
  funext j
  rw [maximumf_apply]
  rfl

/-- The layer read at an index given by its two coordinates. -/
theorem layer_ix2 (x agg : (⟨2, ![n, k]⟩ : Shape).Idx → EReal) (ws wn : (⟨2, ![k, d]⟩ : Shape).Idx → EReal)
    (b : (⟨1, ![d]⟩ : Shape).Idx → EReal) (r : Fin n) (q : Fin d) :
    layer n k d x agg ws wn b (ix2 r q)
      = (∑ κ : Fin k, x (ix2 r κ) * ws (ix2 κ q) + ∑ κ : Fin k, agg (ix2 r κ) * wn (ix2 κ q)) + b (ix1 q) := rfl

/-- A single row `[1, d]` read as the vector `[d]` of its entries. -/
def rowVec (brow : (⟨2, ![1, d]⟩ : Shape).Idx → EReal) : (⟨1, ![d]⟩ : Shape).Idx → EReal :=
  fun i => brow (ix2 (0 : Fin 1) (⟨(i 0).val, (i 0).isLt⟩ : Fin d))

/-- The row made from a vector by adding a leading unit axis reads back as that vector. -/
theorem rowVec_shapeCast (b : (⟨1, ![d]⟩ : Shape).Idx → EReal) (h : (⟨1, ![d]⟩ : Shape).ShapeCasts ⟨2, ![1, d]⟩) :
    rowVec d (shapeCast ⟨2, ![1, d]⟩ b h) = b := by
  funext i
  unfold rowVec
  rw [shapeCast_a_1a_apply b h (0 : Fin 1) ⟨(i 0).val, (i 0).isLt⟩]
  exact congrArg b (eq_ix1 i).symm

/-- A kernel's form of the layer on one tile of m rows: the tile of the features and the tile of the aggregate, each
    narrowed (which changes nothing over the extended reals) and multiplied into a zero accumulator with the narrowed
    weights, the two products added, and the bias row broadcast down the tile's rows added last. At row p of the tile and
    column q it is the layer's expression over the tile's rows. -/
theorem tile_apply (m : Nat) (dd : DotDims ⟨2, ![m, k]⟩ ⟨2, ![k, d]⟩ ⟨2, ![m, d]⟩) (hdd : dd = DotDims.plain m k d)
    (x0 x1 : FVec Ideal ⟨2, ![m, k]⟩ .f32) (w0 w1 : FVec Ideal ⟨2, ![k, d]⟩ .f32) (brow : FVec Ideal ⟨2, ![1, d]⟩ .f32)
    (hb : (⟨2, ![1, d]⟩ : Shape).Broadcasts ⟨2, ![m, d]⟩) (hlt : FTy.bf16.bits < FTy.f32.bits) (p : Fin m) (q : Fin d) :
    addf (addf (matmul dd none (truncf .bf16 x0 hlt) (truncf .bf16 w0 hlt) (constant ⟨2, ![m, d]⟩ .f32 0x00000000#32))
               (matmul dd none (truncf .bf16 x1 hlt) (truncf .bf16 w1 hlt) (constant ⟨2, ![m, d]⟩ .f32 0x00000000#32)))
         (broadcastTo ⟨2, ![m, d]⟩ brow hb) (ix2 p q)
      = (∑ κ : Fin k, x0 (ix2 p κ) * w0 (ix2 κ q) + ∑ κ : Fin k, x1 (ix2 p κ) * w1 (ix2 κ q))
        + brow (ix2 (0 : Fin 1) q) := by
  subst hdd
  rw [addf_apply, addf_apply, broadcastTo_1b_ab_apply brow hb p q]
  show (FloatOps.matmul (DotDims.plain m k d) none (truncf .bf16 x0 hlt) (truncf .bf16 w0 hlt) (constant ⟨2, ![m, d]⟩ .f32 0x00000000#32) (ix2 p q)
      + FloatOps.matmul (DotDims.plain m k d) none (truncf .bf16 x1 hlt) (truncf .bf16 w1 hlt) (constant ⟨2, ![m, d]⟩ .f32 0x00000000#32) (ix2 p q)) + _ = _
  rw [PlainDot.matmul_zero_apply, PlainDot.matmul_zero_apply]
  rfl

end SageLayer

end
-- ==== Proof.LayerOneValue.lean ====
/-
  The first pallas_call as a function of whole arrays. From any contents V of the core's buffers at the call's entry,
  its two result arrays end as the first GraphSAGE layer of the arrays its five operands hold in V: the features x, the
  mean-aggregated features, the two weight matrices and the bias row. The grid has 25 points; point t computes rows
  4000·t … 4000·t + 3999 from the same rows of x and of the aggregate and from the whole weights and bias, so what it
  writes back is its block of one whole-array function, and the 25 blocks tile the 100000 rows.
-/
import proofs.«136791_j8899172237857_1_alg».proof.Proof.Gen.KernelIdeal.Frame
import proofs.«136791_j8899172237857_1_alg».proof.Proof.SageLayer

set_option maxRecDepth 16384

noncomputable section

open scoped BigOperators

namespace Cert.KernelIdeal.LayerOne

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's first stored value, at row p and column q of the tile. -/
theorem pay1_apply (x0 x1 : Vec Ideal S4000x128 .f32) (x2 x3 : Vec Ideal S128x128 .f32) (x4 : Vec Ideal S1x128 .f32)
    (p : Fin 4000) (q : Fin 128) :
    k0_pay1 (F := Ideal) x0 x1 x2 x3 x4 (ix2 p q)
      = (∑ κ : Fin 128, x0 (ix2 p κ) * x2 (ix2 κ q) + ∑ κ : Fin 128, x1 (ix2 p κ) * x3 (ix2 κ q)) + x4 (ix2 (0 : Fin 1) q) := by
  unfold k0_pay1
  simp only [shapeCast_self]
  exact SageLayer.tile_apply 128 128 4000 _ rfl x0 x1 x2 x3 x4 _ _ p q

/-- The body's second stored value is the first one rectified. -/
theorem pay2_apply (x0 x1 : Vec Ideal S4000x128 .f32) (x2 x3 : Vec Ideal S128x128 .f32) (x4 : Vec Ideal S1x128 .f32)
    (j : S4000x128.Idx) :
    k0_pay2 (F := Ideal) x0 x1 x2 x3 x4 j = max (k0_pay1 (F := Ideal) x0 x1 x2 x3 x4 j) (Ideal.ofBits .f32 0x00000000#32) := rfl

/-- The printed index maps over the grid: the row windows move with the point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row p of point t's tile is row 4000·t + p of the array. -/
theorem row_lt (t : Fin cfg0.N) (p : Fin 4000) : t.val * 4000 + p.val < 100000 := by
  have ht : t.val < 25 := t.isLt
  have hp := p.isLt
  omega

/-- The tile of the features at point t. -/
theorem read_x (c : Dev nD) (t : Fin cfg0.N) (p : Fin 4000) (κ : Fin 128) :
    iblk0 V c 0 t (ix2 p κ) = V c main_arg0 (ix2 (⟨t.val * 4000 + p.val, row_lt t p⟩ : Fin 100000) κ) := by
  show V c main_arg0 (((cfg0.win 0).blk t).view.emb (ix2 p κ)) = _
  refine congrArg (V c main_arg0) (funext fun a => Fin.ext ?_)
  obtain ⟨e0, e1, -⟩ := idx_facts t
  match a with
  | ⟨0, _⟩ => show win0_0.index t (0 : Fin 2) * 4000 + 1 * p.val = t.val * 4000 + p.val; omega
  | ⟨1, _⟩ => show win0_0.index t (1 : Fin 2) * 128 + 1 * κ.val = κ.val; omega

/-- The tile of the aggregate at point t. -/
theorem read_agg (c : Dev nD) (t : Fin cfg0.N) (p : Fin 4000) (κ : Fin 128) :
    iblk0 V c 1 t (ix2 p κ) = V c main_v20 (ix2 (⟨t.val * 4000 + p.val, row_lt t p⟩ : Fin 100000) κ) := by
  show V c main_v20 (((cfg0.win 1).blk t).view.emb (ix2 p κ)) = _
  refine congrArg (V c main_v20) (funext fun a => Fin.ext ?_)
  obtain ⟨-, -, e0, e1, -⟩ := idx_facts t
  match a with
  | ⟨0, _⟩ => show win0_1.index t (0 : Fin 2) * 4000 + 1 * p.val = t.val * 4000 + p.val; omega
  | ⟨1, _⟩ => show win0_1.index t (1 : Fin 2) * 128 + 1 * κ.val = κ.val; omega

/-- The self weights: the whole matrix at every point. -/
theorem read_ws (c : Dev nD) (t : Fin cfg0.N) (κ : Fin 128) (q : Fin 128) :
    iblk0 V c 2 t (ix2 κ q) = V c main_arg1 (ix2 κ q) := by
  show V c main_arg1 (((cfg0.win 2).blk t).view.emb (ix2 κ q)) = _
  refine congrArg (V c main_arg1) (funext fun a => Fin.ext ?_)
  obtain ⟨-, -, -, -, e0, e1, -⟩ := idx_facts t
  match a with
  | ⟨0, _⟩ => show win0_2.index t (0 : Fin 2) * 128 + 1 * κ.val = κ.val; omega
  | ⟨1, _⟩ => show win0_2.index t (1 : Fin 2) * 128 + 1 * q.val = q.val; omega

/-- The neighbour weights: the whole matrix at every point. -/
theorem read_wn (c : Dev nD) (t : Fin cfg0.N) (κ : Fin 128) (q : Fin 128) :
    iblk0 V c 3 t (ix2 κ q) = V c main_arg2 (ix2 κ q) := by
  show V c main_arg2 (((cfg0.win 3).blk t).view.emb (ix2 κ q)) = _
  refine congrArg (V c main_arg2) (funext fun a => Fin.ext ?_)
  obtain ⟨-, -, -, -, -, -, e0, e1, -⟩ := idx_facts t
  match a with
  | ⟨0, _⟩ => show win0_3.index t (0 : Fin 2) * 128 + 1 * κ.val = κ.val; omega
  | ⟨1, _⟩ => show win0_3.index t (1 : Fin 2) * 128 + 1 * q.val = q.val; omega

/-- The bias row: the whole row at every point. -/
theorem read_b (c : Dev nD) (t : Fin cfg0.N) (q : Fin 128) :
    iblk0 V c 4 t (ix2 (0 : Fin 1) q) = V c main_v21 (ix2 (0 : Fin 1) q) := by
  show V c main_v21 (((cfg0.win 4).blk t).view.emb (ix2 (0 : Fin 1) q)) = _
  refine congrArg (V c main_v21) (funext fun a => Fin.ext ?_)
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 128 + 1 * q.val = q.val; omega

/-- The layer of the arrays the call's operands hold at its entry. -/
def G (c : Dev nD) : S100000x128.Idx → EReal :=
  SageLayer.layer 100000 128 128 (V c main_arg0) (V c main_v20) (V c main_arg1) (V c main_arg2) (SageLayer.rowVec 128 (V c main_v21))

/-- The same, rectified. -/
def Grelu (c : Dev nD) : S100000x128.Idx → EReal :=
  SageLayer.layerRelu 100000 128 128 (V c main_arg0) (V c main_v20) (V c main_arg1) (V c main_arg2) (SageLayer.rowVec 128 (V c main_v21))

/-- Point t's tile of the body's first stored value is the layer at the tile's rows. -/
theorem tile_eq (c : Dev nD) (t : Fin cfg0.N) (p : Fin 4000) (q : Fin 128) :
    k0_pay1 (F := Ideal) (iblk0 V c 0 t) (iblk0 V c 1 t) (iblk0 V c 2 t) (iblk0 V c 3 t) (iblk0 V c 4 t) (ix2 p q)
      = G V c (ix2 (⟨t.val * 4000 + p.val, row_lt t p⟩ : Fin 100000) q) := by
  refine (pay1_apply (iblk0 V c 0 t) (iblk0 V c 1 t) (iblk0 V c 2 t) (iblk0 V c 3 t) (iblk0 V c 4 t) p q).trans ?_
  unfold G
  rw [SageLayer.layer_ix2, read_b V c t q]
  refine congrArg₂ (· + ·) (congrArg₂ (· + ·) (Finset.sum_congr rfl fun κ _ => ?_) (Finset.sum_congr rfl fun κ _ => ?_)) rfl
  · rw [read_x V c t p κ, read_ws V c t κ q]
  · rw [read_agg V c t p κ, read_wn V c t κ q]

/-- Where point t's output tile sits in the array (both outputs are tiled alike). -/
theorem emb5 (t : Fin cfg0.N) (p : Fin 4000) (q : Fin 128) :
    ((cfg0.win 5).blk t).view.emb (ix2 p q) = ix2 (⟨t.val * 4000 + p.val, row_lt t p⟩ : Fin 100000) q := by
  funext a; apply Fin.ext
  obtain ⟨-, -, -, -, -, -, -, -, -, -, e0, e1, -⟩ := idx_facts t
  match a with
  | ⟨0, _⟩ => show win0_5.index t (0 : Fin 2) * 4000 + 1 * p.val = t.val * 4000 + p.val; omega
  | ⟨1, _⟩ => show win0_5.index t (1 : Fin 2) * 128 + 1 * q.val = q.val; omega
theorem emb6 (t : Fin cfg0.N) (p : Fin 4000) (q : Fin 128) :
    ((cfg0.win 6).blk t).view.emb (ix2 p q) = ix2 (⟨t.val * 4000 + p.val, row_lt t p⟩ : Fin 100000) q := by
  funext a; apply Fin.ext
  obtain ⟨-, -, -, -, -, -, -, -, -, -, -, -, e0, e1⟩ := idx_facts t
  match a with
  | ⟨0, _⟩ => show win0_6.index t (0 : Fin 2) * 4000 + 1 * p.val = t.val * 4000 + p.val; omega
  | ⟨1, _⟩ => show win0_6.index t (1 : Fin 2) * 128 + 1 * q.val = q.val; omega

/-- What point t writes back to the first result is its block of `G`. -/
theorem flushed5_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = G V c (((cfg0.win 5).blk t).view.emb (ix2 p q))
  rw [emb5 t p q]
  exact tile_eq V c t p q

/-- What point t writes back to the second result is its block of `Grelu`. -/
theorem flushed6_eq (c : Dev nD) (t : Fin cfg0.N) :
    (dat0 V c).flushed 6 t = ((cfg0.win 6).blk t).view.read (Elt Ideal) (Grelu V c) := by
  show (cfg0.win 6).cut (grid0.coords t) ((dat0 V c).after 6 t) = _
  rw [after0_6]
  unfold out0_6
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  show k0_pay2 (F := Ideal) (iblk0 V c 0 t) (iblk0 V c 1 t) (iblk0 V c 2 t) (iblk0 V c 3 t) (iblk0 V c 4 t) (ix2 p q)
    = Grelu V c (((cfg0.win 6).blk t).view.emb (ix2 p q))
  rw [emb6 t p q, pay2_apply, tile_eq V c t p q]
  rfl

/-- An index of the array is in point t's block iff each coordinate is in the block's range on its axis. -/
theorem mem_blk5 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v22_0).slice (win0_5.rect t)).set ↔ _
  rw [View.set_slice_whole, Rect.mem_set_unit]
  exact Iff.rfl
theorem mem_blk6 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v22_1).slice (win0_6.rect t)).set ↔ _
  rw [View.set_slice_whole, Rect.mem_set_unit]
  exact Iff.rfl

/-- The point whose tile holds row r is r / 4000. -/
def pointOf (i : S100000x128.Idx) : Fin cfg0.N :=
  ⟨(i 0).val / 4000, by have h : (i 0).val < 100000 := (i 0).isLt; show (i 0).val / 4000 < 25; omega⟩
theorem pointOf_val (i : S100000x128.Idx) : (pointOf i).val = (i 0).val / 4000 := rfl

/-- Every index of the first result is in some point's block. -/
theorem cover5 (i : S100000x128.Idx) : ∃ t : Fin cfg0.N, (cfg0.win 5).flush t = true ∧ i ∈ ((cfg0.win 5).blk t).view.set := by
  have hi1 : (i 1).val < 128 := (i 1).isLt
  refine ⟨pointOf i, flush0_5 _, ?_⟩
  rw [mem_blk5]
  obtain ⟨-, -, -, -, -, -, -, -, -, -, e0, e1, -⟩ := idx_facts (pointOf i)
  have hv := pointOf_val i
  intro a
  match a with
  | ⟨0, _⟩ => show win0_5.index (pointOf i) (0 : Fin 2) * 4000 ≤ (i 0).val ∧ (i 0).val < win0_5.index (pointOf i) (0 : Fin 2) * 4000 + 4000; omega
  | ⟨1, _⟩ => show win0_5.index (pointOf i) (1 : Fin 2) * 128 ≤ (i 1).val ∧ (i 1).val < win0_5.index (pointOf i) (1 : Fin 2) * 128 + 128; omega

/-- Every index of the second result is in some point's block. -/
theorem cover6 (i : S100000x128.Idx) : ∃ t : Fin cfg0.N, (cfg0.win 6).flush t = true ∧ i ∈ ((cfg0.win 6).blk t).view.set := by
  have hi1 : (i 1).val < 128 := (i 1).isLt
  refine ⟨pointOf i, flush0_6 _, ?_⟩
  rw [mem_blk6]
  obtain ⟨-, -, -, -, -, -, -, -, -, -, -, -, e0, e1⟩ := idx_facts (pointOf i)
  have hv := pointOf_val i
  intro a
  match a with
  | ⟨0, _⟩ => show win0_6.index (pointOf i) (0 : Fin 2) * 4000 ≤ (i 0).val ∧ (i 0).val < win0_6.index (pointOf i) (0 : Fin 2) * 4000 + 4000; omega
  | ⟨1, _⟩ => show win0_6.index (pointOf i) (1 : Fin 2) * 128 ≤ (i 1).val ∧ (i 1).val < win0_6.index (pointOf i) (1 : Fin 2) * 128 + 128; omega

/-- After the call the first result holds the layer of the entry arrays, … -/
theorem final5 (c : Dev nD) : (dat0 V c).arrAt 5 cfg0.N = G V c :=
  (dat0 V c).arrAt_eq_of_cover 5 (G V c) (fun t _ => flushed5_eq V c t) cover5
/-- … and the second result the rectified layer. -/
theorem final6 (c : Dev nD) : (dat0 V c).arrAt 6 cfg0.N = Grelu V c :=
  (dat0 V c).arrAt_eq_of_cover 6 (Grelu V c) (fun t _ => flushed6_eq V c t) cover6

end Cert.KernelIdeal.LayerOne

end
-- ==== Proof.LayerTwoValue.lean ====
/-
  The second pallas_call as a function of whole arrays. From any contents V of the core's buffers at the call's entry,
  its result array ends as the second GraphSAGE layer (no activation) of the arrays its five operands hold in V: the
  rectified first layer, its mean aggregate, the two 128 × 64 weight matrices and the bias row. Point t of the 25
  computes rows 4000·t … 4000·t + 3999; the 25 blocks tile the 100000 rows.
-/
import proofs.«136791_j8899172237857_1_alg».proof.Proof.Gen.KernelIdeal.Frame
import proofs.«136791_j8899172237857_1_alg».proof.Proof.SageLayer

set_option maxRecDepth 16384

noncomputable section

open scoped BigOperators

namespace Cert.KernelIdeal.LayerTwo

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value, at row p and column q of the tile. -/
theorem pay1_apply (x0 x1 : Vec Ideal S4000x128 .f32) (x2 x3 : Vec Ideal S128x64 .f32) (x4 : Vec Ideal S1x64 .f32)
    (p : Fin 4000) (q : Fin 64) :
    k1_pay1 (F := Ideal) x0 x1 x2 x3 x4 (ix2 p q)
      = (∑ κ : Fin 128, x0 (ix2 p κ) * x2 (ix2 κ q) + ∑ κ : Fin 128, x1 (ix2 p κ) * x3 (ix2 κ q)) + x4 (ix2 (0 : Fin 1) q) := by
  unfold k1_pay1
  simp only [shapeCast_self]
  exact SageLayer.tile_apply 128 64 4000 _ rfl x0 x1 x2 x3 x4 _ _ p q

/-- The printed index maps over the grid: the row windows move with the point, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's tile is row 4000·t + p of the array. -/
theorem row_lt (t : Fin cfg1.N) (p : Fin 4000) : t.val * 4000 + p.val < 100000 := by
  have ht : t.val < 25 := t.isLt
  have hp := p.isLt
  omega

/-- The tile of the rectified first layer at point t. -/
theorem read_h (c : Dev nD) (t : Fin cfg1.N) (p : Fin 4000) (κ : Fin 128) :
    iblk1 V c 0 t (ix2 p κ) = V c main_v22_1 (ix2 (⟨t.val * 4000 + p.val, row_lt t p⟩ : Fin 100000) κ) := by
  show V c main_v22_1 (((cfg1.win 0).blk t).view.emb (ix2 p κ)) = _
  refine congrArg (V c main_v22_1) (funext fun a => Fin.ext ?_)
  obtain ⟨e0, e1, -⟩ := idx_facts t
  match a with
  | ⟨0, _⟩ => show win1_0.index t (0 : Fin 2) * 4000 + 1 * p.val = t.val * 4000 + p.val; omega
  | ⟨1, _⟩ => show win1_0.index t (1 : Fin 2) * 128 + 1 * κ.val = κ.val; omega

/-- The tile of the aggregate at point t. -/
theorem read_agg (c : Dev nD) (t : Fin cfg1.N) (p : Fin 4000) (κ : Fin 128) :
    iblk1 V c 1 t (ix2 p κ) = V c main_v34 (ix2 (⟨t.val * 4000 + p.val, row_lt t p⟩ : Fin 100000) κ) := by
  show V c main_v34 (((cfg1.win 1).blk t).view.emb (ix2 p κ)) = _
  refine congrArg (V c main_v34) (funext fun a => Fin.ext ?_)
  obtain ⟨-, -, e0, e1, -⟩ := idx_facts t
  match a with
  | ⟨0, _⟩ => show win1_1.index t (0 : Fin 2) * 4000 + 1 * p.val = t.val * 4000 + p.val; omega
  | ⟨1, _⟩ => show win1_1.index t (1 : Fin 2) * 128 + 1 * κ.val = κ.val; omega

/-- The self weights: the whole matrix at every point. -/
theorem read_ws (c : Dev nD) (t : Fin cfg1.N) (κ : Fin 128) (q : Fin 64) :
    iblk1 V c 2 t (ix2 κ q) = V c main_arg4 (ix2 κ q) := by
  show V c main_arg4 (((cfg1.win 2).blk t).view.emb (ix2 κ q)) = _
  refine congrArg (V c main_arg4) (funext fun a => Fin.ext ?_)
  obtain ⟨-, -, -, -, e0, e1, -⟩ := idx_facts t
  match a with
  | ⟨0, _⟩ => show win1_2.index t (0 : Fin 2) * 128 + 1 * κ.val = κ.val; omega
  | ⟨1, _⟩ => show win1_2.index t (1 : Fin 2) * 64 + 1 * q.val = q.val; omega

/-- The neighbour weights: the whole matrix at every point. -/
theorem read_wn (c : Dev nD) (t : Fin cfg1.N) (κ : Fin 128) (q : Fin 64) :
    iblk1 V c 3 t (ix2 κ q) = V c main_arg5 (ix2 κ q) := by
  show V c main_arg5 (((cfg1.win 3).blk t).view.emb (ix2 κ q)) = _
  refine congrArg (V c main_arg5) (funext fun a => Fin.ext ?_)
  obtain ⟨-, -, -, -, -, -, e0, e1, -⟩ := idx_facts t
  match a with
  | ⟨0, _⟩ => show win1_3.index t (0 : Fin 2) * 128 + 1 * κ.val = κ.val; omega
  | ⟨1, _⟩ => show win1_3.index t (1 : Fin 2) * 64 + 1 * q.val = q.val; omega

/-- The bias row: the whole row at every point. -/
theorem read_b (c : Dev nD) (t : Fin cfg1.N) (q : Fin 64) :
    iblk1 V c 4 t (ix2 (0 : Fin 1) q) = V c main_v35 (ix2 (0 : Fin 1) q) := by
  show V c main_v35 (((cfg1.win 4).blk t).view.emb (ix2 (0 : Fin 1) q)) = _
  refine congrArg (V c main_v35) (funext fun a => Fin.ext ?_)
  obtain ⟨-, -, -, -, -, -, -, -, e0, e1, -⟩ := idx_facts t
  match a with
  | ⟨0, _⟩ => show win1_4.index t (0 : Fin 2) * 1 + 1 * 0 = 0; omega
  | ⟨1, _⟩ => show win1_4.index t (1 : Fin 2) * 64 + 1 * q.val = q.val; omega

/-- The layer of the arrays the call's operands hold at its entry. -/
def G (c : Dev nD) : S100000x64.Idx → EReal :=
  SageLayer.layer 100000 128 64 (V c main_v22_1) (V c main_v34) (V c main_arg4) (V c main_arg5) (SageLayer.rowVec 64 (V c main_v35))

/-- Point t's tile of the body's stored value is the layer at the tile's rows. -/
theorem tile_eq (c : Dev nD) (t : Fin cfg1.N) (p : Fin 4000) (q : Fin 64) :
    k1_pay1 (F := Ideal) (iblk1 V c 0 t) (iblk1 V c 1 t) (iblk1 V c 2 t) (iblk1 V c 3 t) (iblk1 V c 4 t) (ix2 p q)
      = G V c (ix2 (⟨t.val * 4000 + p.val, row_lt t p⟩ : Fin 100000) q) := by
  refine (pay1_apply (iblk1 V c 0 t) (iblk1 V c 1 t) (iblk1 V c 2 t) (iblk1 V c 3 t) (iblk1 V c 4 t) p q).trans ?_
  unfold G
  rw [SageLayer.layer_ix2, read_b V c t q]
  refine congrArg₂ (· + ·) (congrArg₂ (· + ·) (Finset.sum_congr rfl fun κ _ => ?_) (Finset.sum_congr rfl fun κ _ => ?_)) rfl
  · rw [read_h V c t p κ, read_ws V c t κ q]
  · rw [read_agg V c t p κ, read_wn V c t κ q]

/-- Where point t's output tile sits in the array. -/
theorem emb5 (t : Fin cfg1.N) (p : Fin 4000) (q : Fin 64) :
    ((cfg1.win 5).blk t).view.emb (ix2 p q) = ix2 (⟨t.val * 4000 + p.val, row_lt t p⟩ : Fin 100000) q := by
  funext a; apply Fin.ext
  obtain ⟨-, -, -, -, -, -, -, -, -, -, e0, e1⟩ := idx_facts t
  match a with
  | ⟨0, _⟩ => show win1_5.index t (0 : Fin 2) * 4000 + 1 * p.val = t.val * 4000 + p.val; omega
  | ⟨1, _⟩ => show win1_5.index t (1 : Fin 2) * 64 + 1 * q.val = q.val; omega

/-- What point t writes back is its block of `G`. -/
theorem flushed5_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x64) hz, View.ld_unit_zero (S := S1x64) hz]
  funext j
  obtain ⟨p, q, rfl⟩ : ∃ (p : Fin 4000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = G V c (((cfg1.win 5).blk t).view.emb (ix2 p q))
  rw [emb5 t p q]
  exact tile_eq V c t p q

/-- An index of the array is in point t's block iff each coordinate is in the block's range on its axis. -/
theorem mem_blk5 (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v36).slice (win1_5.rect t)).set ↔ _
  rw [View.set_slice_whole, Rect.mem_set_unit]
  exact Iff.rfl

/-- The point whose tile holds row r is r / 4000. -/
def pointOf (i : S100000x64.Idx) : Fin cfg1.N :=
  ⟨(i 0).val / 4000, by have h : (i 0).val < 100000 := (i 0).isLt; show (i 0).val / 4000 < 25; omega⟩
theorem pointOf_val (i : S100000x64.Idx) : (pointOf i).val = (i 0).val / 4000 := rfl

/-- Every index of the result is in some point's block. -/
theorem cover5 (i : S100000x64.Idx) : ∃ t : Fin cfg1.N, (cfg1.win 5).flush t = true ∧ i ∈ ((cfg1.win 5).blk t).view.set := by
  have hi1 : (i 1).val < 64 := (i 1).isLt
  refine ⟨pointOf i, flush1_5 _, ?_⟩
  rw [mem_blk5]
  obtain ⟨-, -, -, -, -, -, -, -, -, -, e0, e1⟩ := idx_facts (pointOf i)
  have hv := pointOf_val i
  intro a
  match a with
  | ⟨0, _⟩ => show win1_5.index (pointOf i) (0 : Fin 2) * 4000 ≤ (i 0).val ∧ (i 0).val < win1_5.index (pointOf i) (0 : Fin 2) * 4000 + 4000; omega
  | ⟨1, _⟩ => show win1_5.index (pointOf i) (1 : Fin 2) * 64 ≤ (i 1).val ∧ (i 1).val < win1_5.index (pointOf i) (1 : Fin 2) * 64 + 64; omega

/-- After the call the result holds the layer of the entry arrays. -/
theorem final5 (c : Dev nD) : (dat1 V c).arrAt 5 cfg1.N = G V c :=
  (dat1 V c).arrAt_eq_of_cover 5 (G V c) (fun t _ => flushed5_eq V c t) cover5

end Cert.KernelIdeal.LayerTwo

end
-- ==== Proof.SageProgram.lean ====
/-
  The two-layer GraphSAGE network as functions of the nine argument arrays, over the extended reals:

      inv      = 1 / max(in-degree, 1)            (the edges' ones scatter-added at dst; a column)
      agg(h)   = (scatter-add over dst of the rows h[src]) · inv
      h1       = layer(x, agg(x), W_self1, W_neigh1, b1)
      h1r      = max(h1, 0)
      h2       = layer(h1r, agg(h1r), W_self2, W_neigh2, b2)

  `agg` is written with the host operations both programs print (their gather, scatter-add, compare, select and
  broadcasts), as one function of h, src and dst that no proof opens.
-/
import proofs.«136791_j8899172237857_1_alg».proof.Proof.Gen.KernelIdeal
import proofs.«136791_j8899172237857_1_alg».proof.Proof.SageLayer

noncomputable section

namespace Cert.KernelIdeal.Sage

open Cert.KernelIdeal Cert.KernelIdeal.Facts₀ Idealize.ShloMosaic

/-- The reciprocal of every node's in-degree, the degree clamped below at one, as a column: the edges' ones
    scatter-added at their destinations, the larger of that and one, one divided by it. -/
def invDeg (dst : IVec S1600000 32) : FVec Ideal S100000x1 .f32 :=
  broadcastInDim S100000x1 ![0] bcast_S100000_S100000x1_0
    (Host.divf (F := Ideal) (broadcastInDim S100000 ![] bcast_S_S100000 (constant (F := Ideal) S_ .f32 0x3F800000#32))
      (maximumf (F := Ideal)
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 dst)
          (broadcastInDim S1600000 ![] bcast_S_S1600000 (constant (F := Ideal) S_ .f32 0x3F800000#32)))
        (broadcastInDim S100000 ![] bcast_S_S100000 (constant (F := Ideal) S_ .f32 0x3F800000#32))))

/-- The mean of the in-neighbours' rows: the rows of h at the edges' sources (a negative source index counted from the
    end), scatter-added at the edges' destinations, each node's sum times its reciprocal degree. -/
def meanAgg (h : FVec Ideal S100000x128 .f32) (src dst : IVec S1600000 32) (inv : FVec Ideal S100000x1 .f32) :
    FVec Ideal S100000x128 .f32 :=
  mulf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32)))
            src))))
    (broadcastInDim S100000x128 ![0, 1] bcast_S100000x1_S100000x128_0_1 inv)

/-- Layer one before its activation. -/
def h1 (x : FVec Ideal S100000x128 .f32) (ws1 wn1 : FVec Ideal S128x128 .f32) (b1 : FVec Ideal S128 .f32)
    (src dst : IVec S1600000 32) : FVec Ideal S100000x128 .f32 :=
  SageLayer.layer 100000 128 128 x (meanAgg x src dst (invDeg dst)) ws1 wn1 b1

/-- Layer one rectified. -/
def h1r (x : FVec Ideal S100000x128 .f32) (ws1 wn1 : FVec Ideal S128x128 .f32) (b1 : FVec Ideal S128 .f32)
    (src dst : IVec S1600000 32) : FVec Ideal S100000x128 .f32 :=
  SageLayer.layerRelu 100000 128 128 x (meanAgg x src dst (invDeg dst)) ws1 wn1 b1

/-- Layer two, of the rectified layer one. -/
def h2 (x : FVec Ideal S100000x128 .f32) (ws1 wn1 : FVec Ideal S128x128 .f32) (b1 : FVec Ideal S128 .f32)
    (ws2 wn2 : FVec Ideal S128x64 .f32) (b2 : FVec Ideal S64 .f32) (src dst : IVec S1600000 32) : FVec Ideal S100000x64 .f32 :=
  SageLayer.layer 100000 128 64 (h1r x ws1 wn1 b1 src dst) (meanAgg (h1r x ws1 wn1 b1 src dst) src dst (invDeg dst)) ws2 wn2 b2

end Cert.KernelIdeal.Sage

end
-- ==== Proof.KernelValue.lean ====
/-
  The idealized kernel program's results as functions of its arguments. The program is: host operations that compute
  the reciprocal in-degree of every node (clamped below at one) and the mean over in-neighbours of the features x; the
  first pallas_call (layer one and its rectification); host operations that compute the same mean of the rectified
  layer; the second pallas_call (layer two). Reading the buffer contents at each boundary back to the arguments:

      h1  = layer(x, agg(x), W_self1, W_neigh1, b1)          h1r = max(h1, 0)
      h2  = layer(h1r, agg(h1r), W_self2, W_neigh2, b2)

  with agg(h) = (scatter-add over dst of the rows h[src]) · (1 / max(in-degree, 1)), kept as ONE function of h, src and
  dst: the reference applies the very same host operations, so it is never opened.
-/
import proofs.«136791_j8899172237857_1_alg».proof.Proof.KernelIdealRun
import proofs.«136791_j8899172237857_1_alg».proof.Proof.LayerOneValue
import proofs.«136791_j8899172237857_1_alg».proof.Proof.LayerTwoValue
import proofs.«136791_j8899172237857_1_alg».proof.Proof.SageProgram

set_option maxRecDepth 16384

noncomputable section

namespace Cert.KernelIdeal.Whole

open Cert.KernelIdeal Cert.KernelIdeal.Gen Cert.KernelIdeal.Sage
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The first host stretch, read back to the arguments -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl

/-- The reciprocal-degree column after the first stretch. -/
theorem W1_inv (c : Dev nD) : W1 m ρ c (Proc.devRef .tc main_v8) = invDeg (m ((c : Thread nD τ).loc main_arg8)) := by
  show StableHlo.after hostOps0 (W0 m ρ c) (Proc.devRef .tc main_v8) = _
  after_results_simp <;> rfl

/-- The mean-aggregated features after the first stretch. -/
theorem W1_agg (c : Dev nD) : W1 m ρ c (Proc.devRef .tc main_v20)
    = meanAgg (m ((c : Thread nD τ).loc main_arg0)) (m ((c : Thread nD τ).loc main_arg7)) (m ((c : Thread nD τ).loc main_arg8))
        (invDeg (m ((c : Thread nD τ).loc main_arg8))) := by
  show StableHlo.after hostOps0 (W0 m ρ c) (Proc.devRef .tc main_v20) = _
  after_results_simp <;> rfl

/-- The first bias as a row after the first stretch. -/
theorem W1_b (c : Dev nD) : W1 m ρ c (Proc.devRef .tc main_v21)
    = shapeCast S1x128 (m ((c : Thread nD τ).loc main_arg3)) shapeCasts_S128_S1x128 := by
  show StableHlo.after hostOps0 (W0 m ρ c) (Proc.devRef .tc main_v21) = _
  after_results_simp <;> rfl

/-! ## The first pallas_call's results, read back to the arguments -/

/-- The first call's layer at entry contents that are known arrays. -/
theorem G1_congr (V : (c : Dev nD) → (b : Ref sig .tc) → Buf (Elt Ideal) ((c : Thread nD τ).loc b)) (c : Dev nD)
    {x a : FVec Ideal S100000x128 .f32} {ws wn : FVec Ideal S128x128 .f32} {b : FVec Ideal S1x128 .f32}
    (hx : V c main_arg0 = x) (ha : V c main_v20 = a) (hws : V c main_arg1 = ws) (hwn : V c main_arg2 = wn) (hb : V c main_v21 = b) :
    LayerOne.G V c = SageLayer.layer 100000 128 128 x a ws wn (SageLayer.rowVec 128 b) := by
  subst hx ha hws hwn hb; rfl
theorem G1r_congr (V : (c : Dev nD) → (b : Ref sig .tc) → Buf (Elt Ideal) ((c : Thread nD τ).loc b)) (c : Dev nD)
    {x a : FVec Ideal S100000x128 .f32} {ws wn : FVec Ideal S128x128 .f32} {b : FVec Ideal S1x128 .f32}
    (hx : V c main_arg0 = x) (ha : V c main_v20 = a) (hws : V c main_arg1 = ws) (hwn : V c main_arg2 = wn) (hb : V c main_v21 = b) :
    LayerOne.Grelu V c = SageLayer.layerRelu 100000 128 128 x a ws wn (SageLayer.rowVec 128 b) := by
  subst hx ha hws hwn hb; rfl

/-- Layer one of the arguments, in the first result at the first call's exit. -/
theorem W2_h1 (c : Dev nD) : W2 m ρ c (Proc.devRef .tc main_v22_0)
    = h1 (m ((c : Thread nD τ).loc main_arg0)) (m ((c : Thread nD τ).loc main_arg1)) (m ((c : Thread nD τ).loc main_arg2))
        (m ((c : Thread nD τ).loc main_arg3)) (m ((c : Thread nD τ).loc main_arg7)) (m ((c : Thread nD τ).loc main_arg8)) :=
  (W2_arr m ρ c 5).trans ((LayerOne.final5 (V1 m ρ) c).trans
    ((G1_congr (V1 m ρ) c (W1_arg0 m ρ c) (W1_agg m ρ c) (W1_arg1 m ρ c) (W1_arg2 m ρ c) (W1_b m ρ c)).trans
      (by unfold h1; rw [SageLayer.rowVec_shapeCast])))

/-- Its rectification, in the second result at the first call's exit. -/
theorem W2_h1r (c : Dev nD) : W2 m ρ c (Proc.devRef .tc main_v22_1)
    = h1r (m ((c : Thread nD τ).loc main_arg0)) (m ((c : Thread nD τ).loc main_arg1)) (m ((c : Thread nD τ).loc main_arg2))
        (m ((c : Thread nD τ).loc main_arg3)) (m ((c : Thread nD τ).loc main_arg7)) (m ((c : Thread nD τ).loc main_arg8)) :=
  (W2_arr m ρ c 6).trans ((LayerOne.final6 (V1 m ρ) c).trans
    ((G1r_congr (V1 m ρ) c (W1_arg0 m ρ c) (W1_agg m ρ c) (W1_arg1 m ρ c) (W1_arg2 m ρ c) (W1_b m ρ c)).trans
      (by unfold h1r; rw [SageLayer.rowVec_shapeCast])))

/-- What the first call does not write is as the first stretch left it. -/
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_inv (c : Dev nD) : W2 m ρ c (Proc.devRef .tc main_v8) = invDeg (m ((c : Thread nD τ).loc main_arg8)) :=
  (W2_of_ne m ρ c main_v8 (by decide)).trans (W1_inv m ρ c)

/-! ## The second host stretch -/

theorem W3_h1 (c : Dev nD) : W3 m ρ c (Proc.devRef .tc main_v22_0)
    = h1 (m ((c : Thread nD τ).loc main_arg0)) (m ((c : Thread nD τ).loc main_arg1)) (m ((c : Thread nD τ).loc main_arg2))
        (m ((c : Thread nD τ).loc main_arg3)) (m ((c : Thread nD τ).loc main_arg7)) (m ((c : Thread nD τ).loc main_arg8)) := by
  show StableHlo.after hostOps1 (W2 m ρ c) (Proc.devRef .tc main_v22_0) = _
  after_results_simp
  exact W2_h1 m ρ c
theorem W3_h1r (c : Dev nD) : W3 m ρ c (Proc.devRef .tc main_v22_1)
    = h1r (m ((c : Thread nD τ).loc main_arg0)) (m ((c : Thread nD τ).loc main_arg1)) (m ((c : Thread nD τ).loc main_arg2))
        (m ((c : Thread nD τ).loc main_arg3)) (m ((c : Thread nD τ).loc main_arg7)) (m ((c : Thread nD τ).loc main_arg8)) := by
  show StableHlo.after hostOps1 (W2 m ρ c) (Proc.devRef .tc main_v22_1) = _
  after_results_simp
  exact W2_h1r m ρ c
theorem W3_arg4 (c : Dev nD) : W3 m ρ c (Proc.devRef .tc main_arg4) = m ((c : Thread nD τ).loc main_arg4) := by
  show StableHlo.after hostOps1 (W2 m ρ c) (Proc.devRef .tc main_arg4) = _
  after_results_simp
  exact W2_arg4 m ρ c
theorem W3_arg5 (c : Dev nD) : W3 m ρ c (Proc.devRef .tc main_arg5) = m ((c : Thread nD τ).loc main_arg5) := by
  show StableHlo.after hostOps1 (W2 m ρ c) (Proc.devRef .tc main_arg5) = _
  after_results_simp
  exact W2_arg5 m ρ c

/-- The mean aggregate of the rectified layer one after the second stretch. -/
theorem W3_agg (c : Dev nD) : W3 m ρ c (Proc.devRef .tc main_v34)
    = meanAgg (h1r (m ((c : Thread nD τ).loc main_arg0)) (m ((c : Thread nD τ).loc main_arg1)) (m ((c : Thread nD τ).loc main_arg2))
          (m ((c : Thread nD τ).loc main_arg3)) (m ((c : Thread nD τ).loc main_arg7)) (m ((c : Thread nD τ).loc main_arg8)))
        (m ((c : Thread nD τ).loc main_arg7)) (m ((c : Thread nD τ).loc main_arg8)) (invDeg (m ((c : Thread nD τ).loc main_arg8))) := by
  show StableHlo.after hostOps1 (W2 m ρ c) (Proc.devRef .tc main_v34) = _
  after_results_simp
  rw [W2_h1r m ρ c, W2_arg7 m ρ c, W2_arg8 m ρ c, W2_inv m ρ c]
  rfl

/-- The second bias as a row after the second stretch. -/
theorem W3_b (c : Dev nD) : W3 m ρ c (Proc.devRef .tc main_v35)
    = shapeCast S1x64 (m ((c : Thread nD τ).loc main_arg6)) shapeCasts_S64_S1x64 := by
  have e : W3 m ρ c (Proc.devRef .tc main_v35) = shapeCast S1x64 (W2 m ρ c (Proc.devRef .tc main_arg6)) shapeCasts_S64_S1x64 := by
    show StableHlo.after hostOps1 (W2 m ρ c) (Proc.devRef .tc main_v35) = _
    after_results_simp <;> rfl
  exact e.trans (congrArg (fun z => shapeCast S1x64 z shapeCasts_S64_S1x64) (W2_arg6 m ρ c))

/-! ## The second pallas_call's result, and the run -/

theorem G2_congr (V : (c : Dev nD) → (b : Ref sig .tc) → Buf (Elt Ideal) ((c : Thread nD τ).loc b)) (c : Dev nD)
    {x a : FVec Ideal S100000x128 .f32} {ws wn : FVec Ideal S128x64 .f32} {b : FVec Ideal S1x64 .f32}
    (hx : V c main_v22_1 = x) (ha : V c main_v34 = a) (hws : V c main_arg4 = ws) (hwn : V c main_arg5 = wn) (hb : V c main_v35 = b) :
    LayerTwo.G V c = SageLayer.layer 100000 128 64 x a ws wn (SageLayer.rowVec 64 b) := by
  subst hx ha hws hwn hb; rfl

/-- Layer two of the arguments, in the last result at the end. -/
theorem W4_h2 (c : Dev nD) : W4 m ρ c (Proc.devRef .tc main_v36)
    = h2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) :=
  (W4_arr m ρ c 5).trans ((LayerTwo.final5 (V3 m ρ) c).trans
    ((G2_congr (V3 m ρ) c (W3_h1r m ρ c) (W3_agg m ρ c) (W3_arg4 m ρ c) (W3_arg5 m ρ c) (W3_b m ρ c)).trans
      (by unfold h2; rw [SageLayer.rowVec_shapeCast])))

/-- The second call does not write the first call's first result, … -/
theorem W4_h1 (c : Dev nD) : W4 m ρ c (Proc.devRef .tc main_v22_0)
    = h1 (m ((c : Thread nD τ).loc main_arg0)) (m ((c : Thread nD τ).loc main_arg1)) (m ((c : Thread nD τ).loc main_arg2))
        (m ((c : Thread nD τ).loc main_arg3)) (m ((c : Thread nD τ).loc main_arg7)) (m ((c : Thread nD τ).loc main_arg8)) :=
  (W4_of_ne m ρ c main_v22_0 (by decide)).trans (W3_h1 m ρ c)

/-- … and only reads the second. -/
theorem W4_h1r (c : Dev nD) : W4 m ρ c (Proc.devRef .tc main_v22_1)
    = h1r (m ((c : Thread nD τ).loc main_arg0)) (m ((c : Thread nD τ).loc main_arg1)) (m ((c : Thread nD τ).loc main_arg2))
        (m ((c : Thread nD τ).loc main_arg3)) (m ((c : Thread nD τ).loc main_arg7)) (m ((c : Thread nD τ).loc main_arg8)) :=
  (W4_arr m ρ c 0).trans (((dat1 (V3 m ρ) c).arrAt_in 0 rfl _).trans ((A_eq1 (V3 m ρ) c 0).trans (W3_h1r m ρ c)))

/-- The run of the idealized kernel program: it terminates with its results at the network's layers of the arguments
    and the arguments unchanged. -/
theorem run : θ_run defs (onTc (τ := τ) (main (F := Ideal))) ⟨m, fun _ => 0, ρ⟩ (fun r => ∀ c : Dev nD,
      r.2.mem ((c.tc : Thread nD τ).loc main_v36)
        = h2 (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c.tc : Thread nD τ).loc main_v22_0)
        = h1 (m ((c : Thread nD τ).loc main_arg0)) (m ((c : Thread nD τ).loc main_arg1)) (m ((c : Thread nD τ).loc main_arg2))
            (m ((c : Thread nD τ).loc main_arg3)) (m ((c : Thread nD τ).loc main_arg7)) (m ((c : Thread nD τ).loc main_arg8))
      ∧ r.2.mem ((c.tc : Thread nD τ).loc main_v22_1)
        = h1r (m ((c : Thread nD τ).loc main_arg0)) (m ((c : Thread nD τ).loc main_arg1)) (m ((c : Thread nD τ).loc main_arg2))
            (m ((c : Thread nD τ).loc main_arg3)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v36 (by decide))).trans (W4_h2 m ρ c),
     (h c _ (mem_uc main_v22_0 (by decide))).trans (W4_h1 m ρ c),
     (h c _ (mem_uc main_v22_1 (by decide))).trans (W4_h1r m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩)
    (run_held m ρ)

end Cert.KernelIdeal.Whole

end
-- ==== Proof.ReferenceValue.lean ====
/-
  The idealized reference program's results as the same functions of its arguments. The reference is host operations
  only: the reciprocal in-degree and the mean aggregate exactly as in the kernel's program, each layer as two matrix
  products, their sum and the broadcast bias, the rectifier as the larger of the layer and a zero splat. Each layer in
  that form is `SageLayer.layer` index by index (the matrix product read at an index is the sum over the contracted
  coordinate); the aggregate is the kernel program's own chain of host operations, so it is matched whole, never opened.
-/
import proofs.«136791_j8899172237857_1_alg».proof.Proof.Gen.ReferenceIdeal.Run
import proofs.«136791_j8899172237857_1_alg».proof.Proof.SageProgram

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem
open Cert.KernelIdeal.Sage (h1 h1r h2 meanAgg invDeg)

/-- Layer two depends on layer one only through its value. -/
theorem layer_two_congr (X Y : FVec Ideal Cert.KernelIdeal.S100000x128 .f32) (h : X = Y)
    (src dst : IVec Cert.KernelIdeal.S1600000 32) (ws wn : FVec Ideal Cert.KernelIdeal.S128x64 .f32)
    (b : FVec Ideal Cert.KernelIdeal.S64 .f32) :
    SageLayer.layer 100000 128 64 X (meanAgg X src dst (invDeg dst)) ws wn b
      = SageLayer.layer 100000 128 64 Y (meanAgg Y src dst (invDeg dst)) ws wn b := by
  subst h; rfl

variable (m : (ℓ : Loc nD τ sig) → Buf (Elt Ideal) ℓ) (ρ : Dev nD → PrngReg)

/-- The run of the idealized reference: it terminates with its results at the network's layers of the arguments and the
    arguments unchanged. -/
theorem run : θ_run defs (onTc (τ := τ) (main (F := Ideal))) ⟨m, fun _ => 0, ρ⟩ (fun r => ∀ c : Dev nD,
      r.2.mem ((c.tc : Thread nD τ).loc main_v45)
        = h2 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_v26)
        = h1 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg7)) (m ((c.tc : Thread nD τ).loc main_arg8))
      ∧ r.2.mem ((c.tc : Thread nD τ).loc main_v27)
        = h1r (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (Cert.ReferenceIdeal.Value.run (F := Ideal) m ρ)
  obtain ⟨e45, e26, e27, -, eargs⟩ := h c
  refine ⟨e45.trans ?_, e26.trans ?_, e27.trans ?_, eargs⟩
  · -- layer two: its first operand and its aggregate's operand are the rectified layer one
    unfold res_main_v45 h2
    refine (SageLayer.host_layer_eq 100000 128 64 _ rfl _ _ _ _ _ _ _).trans ?_
    exact layer_two_congr _ _ (SageLayer.host_layer_relu_eq 100000 128 128 _ rfl _ _ _ _ _ _ _ _)
      (m ((c.tc : Thread nD τ).loc main_arg7)) (m ((c.tc : Thread nD τ).loc main_arg8)) _ _ _
  · unfold h1
    exact SageLayer.host_layer_eq 100000 128 128 _ rfl _ _ _ _ _ _ _
  · unfold h1r
    exact SageLayer.host_layer_relu_eq 100000 128 128 _ rfl _ _ _ _ _ _ _ _

end Cert.ReferenceIdeal.RefValue

end
-- ==== Proof.lean ====
/-
  Two-layer GraphSAGE with mean aggregation, a Pallas kernel per layer against the plain jnp reference, equal over the
  extended reals.

  Both programs compute, from features x : [100000, 128], edge lists src, dst : [1600000] and the layers' weights,

      inv  = 1 / max(in-degree, 1),        agg(h) = (Σ over edges into a node of h[src]) · inv,
      h1   = x · W_self1 + agg(x) · W_neigh1 + b1,        h1r = max(h1, 0),
      h2   = h1r · W_self2 + agg(h1r) · W_neigh2 + b2,

  and return (h2, h1, h1r, h2). The degree, the gathers and the scatter-adds are the same host operations in both
  programs. The kernel program computes each layer's dense part in a pallas_call tiled over the nodes, 4000 rows a grid
  point: the operands narrowed to bf16 (no change over the extended reals), two matrix products into zero accumulators,
  their sum, the bias row added; the first call also stores the rectified tile. The reference computes the same with two
  whole matrix products. Read at an index both are

      (Σ_κ h[r, κ] · W_self[κ, q]  +  Σ_κ agg[r, κ] · W_neigh[κ, q])  +  b[q],

  with the same grouping, so no law of the extended reals is used and the inputs' finiteness is never opened.

  The modules: SageLayer (the layer as a function of whole arrays; a host program's and a tile's form of it),
  SageProgram (the network's three results as functions of the arguments), LayerOneValue and LayerTwoValue (each
  pallas_call's result arrays from any entry contents: what a grid point writes back is its block of the layer, and the
  blocks tile the rows), KernelIdealRun and KernelValue (the kernel program's run with every buffer named at the last
  boundary, read back through the two host stretches to the arguments), ReferenceValue (the reference's run).
-/
import proofs.«136791_j8899172237857_1_alg».proof.Defs
import proofs.«136791_j8899172237857_1_alg».proof.Proof.Gen.Kernel
import proofs.«136791_j8899172237857_1_alg».proof.Proof.Gen.Kernel.Frame
import proofs.«136791_j8899172237857_1_alg».proof.Proof.Gen.KernelIdeal
import proofs.«136791_j8899172237857_1_alg».proof.Proof.Gen.KernelIdeal.Frame
import proofs.«136791_j8899172237857_1_alg».proof.Proof.Gen.ReferenceIdeal
import proofs.«136791_j8899172237857_1_alg».proof.Proof.Gen.ReferenceIdeal.Run
import proofs.«136791_j8899172237857_1_alg».proof.Proof.Gen.Pre_finite_inputs
import proofs.«136791_j8899172237857_1_alg».proof.Proof.KernelValue
import proofs.«136791_j8899172237857_1_alg».proof.Proof.ReferenceValue
import Idealize.ShloMosaic.Adequacy
import Idealize.ShloMosaic.Init

noncomputable section

namespace Cert.Proof

open Idealize.ShloMosaic Idealize.ShloMosaic.TcCoe Idealize.SL.Sem
open Cert.KernelIdeal.Sage (h1 h1r h2)

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its run, the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- Both idealized programs end with their four results at h2, h1, h1r, h2 of arguments that agree. -/
theorem algebraic : Cert.algebraic_KernelIdeal_ReferenceIdeal := by
  intro m ρ m' ρ' _ hagree
  refine ⟨
    fun c => h2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => h1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => h1r (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => h2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    ?_, ?_⟩
  · refine (θ_run Cert.KernelIdeal.defs _ _).mono (fun r h c => ?_) (Cert.KernelIdeal.Whole.run m ρ)
    obtain ⟨e2, e1, e1r, eargs⟩ := h c
    exact ⟨e2, e1, e1r, e2, eargs⟩
  · refine (θ_run Cert.ReferenceIdeal.defs _ _).mono (fun r h c => ?_) (Cert.ReferenceIdeal.RefValue.run m' ρ')
    obtain ⟨e2, e1, e1r, eargs⟩ := h c
    obtain ⟨a0, a1, a2, a3, a4, a5, a6, a7, a8⟩ := hagree c
    refine ⟨e2.trans ?_, e1.trans ?_, e1r.trans ?_, e2.trans ?_, eargs⟩
    · rw [a0, a1, a2, a3, a4, a5, a6, a7, a8]
    · rw [a0, a1, a2, a3, a7, a8]
    · rw [a0, a1, a2, a3, a7, a8]
    · rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
